-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S257 : Shape := ⟨1, ![257]⟩
abbrev S256 : Shape := ⟨1, ![256]⟩
abbrev S1000x256x256 : Shape := ⟨3, ![1000, 256, 256]⟩
abbrev S1000x256 : Shape := ⟨2, ![1000, 256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S1000x256x256 : S_.BroadcastsInDim S1000x256x256 (![] : Fin 0 → Fin S1000x256x256.rank)
  reducesTo_S1000x256x256_S_d0_1_2 : S1000x256x256.ReducesTo [0, 1, 2] S_
  bcast_S_S1000x256 : S_.BroadcastsInDim S1000x256 (![] : Fin 0 → Fin S1000x256.rank)
  reducesTo_S1000x256_S_d0_1 : S1000x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  main_v17

def fn {F : FTy → Type} [FloatOps F] (main_arg0 : FVec F S524288x256 .f32) (main_arg1 : IVec S257 32) (main_arg2 : IVec S256 32) (main_arg3 : FVec F S1000x256x256 .f32) (main_arg4 : FVec F S1000x256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S1000x256x256 .f32 := Host.absf main_arg3
  let main_cst_0 : FVec F S_ .f32 := constant S_ .f32 0x7F800000#32
  let main_v5 : FVec F S1000x256x256 .f32 := broadcastInDim S1000x256x256 ![] bcast_S_S1000x256x256 main_cst_0
  let main_v6 : IVec S1000x256x256 1 := cmpf .olt main_v4 main_v5
  let main_c_1 : IVec S_ 1 := constantI S_ 1 1#1
  let main_v7 : IVec S_ 1 := (fun x v => Host.reduce IntOp.andi x v reducesTo_S1000x256x256_S_d0_1_2 h_S_) main_v6 main_c_1
  let main_v8 : IVec S_ 1 := andi main_v3 main_v7
  let main_v9 : FVec F S1000x256 .f32 := Host.absf main_arg4
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg2 main_v14
  let main_c_5 : IVec S_ 1 := constantI S_ 1 1#1
  fn_part1 (F := F) main_v13 main_v15 main_c_5
-- ==== Kernel.lean ====
abbrev S524288x256 : Shape := ⟨2, ![524288, 256]⟩
abbrev S257 : Shape := ⟨1, ![257]⟩
abbrev S256 : Shape := ⟨1, ![256]⟩
abbrev S1000x256x256 : Shape := ⟨3, ![1000, 256, 256]⟩
abbrev S1000x256 : Shape := ⟨2, ![1000, 256]⟩
abbrev S_ : Shape := ⟨0, ![]⟩
abbrev S1000x1x256 : Shape := ⟨3, ![1000, 1, 256]⟩
abbrev S2048x256 : Shape := ⟨2, ![2048, 256]⟩
abbrev S1x256x256 : Shape := ⟨3, ![1, 256, 256]⟩
abbrev S1 : Shape := ⟨1, ![1]⟩
abbrev S1x1x256 : Shape := ⟨3, ![1, 1, 256]⟩
abbrev S256x256 : Shape := ⟨2, ![256, 256]⟩
abbrev S1x256 : Shape := ⟨2, ![1, 256]⟩

abbrev nBuf : Space → Nat
  | .hbm => 14
  | .vmem => 8
  | .smem => 1
  | _ => 0

abbrev bufTy : (tb : Table) → Fin (tcTables nBuf tb) → BufTy
  | .hbm, ⟨0, _⟩ => ⟨S524288x256, .f32⟩
  | .hbm, ⟨1, _⟩ => ⟨S257, .i32⟩
  | .hbm, ⟨2, _⟩ => ⟨S256, .i32⟩
  | .hbm, ⟨3, _⟩ => ⟨S1000x256x256, .f32⟩
  | .hbm, ⟨4, _⟩ => ⟨S1000x256, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S1000x1x256, .f32⟩
  | .hbm, ⟨13, _⟩ => ⟨S524288x256, .f32⟩
  | .local _ .vmem, ⟨0, _⟩ => ⟨S2048x256, .f32⟩
  | .local _ .vmem, ⟨1, _⟩ => ⟨S2048x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S2048x256, .f32⟩
  | .local _ .vmem, ⟨7, _⟩ => ⟨S2048x256, .f32⟩
  | .local _ .smem, ⟨0, _⟩ => ⟨S256, .i32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let v2 : Index := Scalar.indexCast v1
  let v3 : BitVec 32 := pf.at 0 (Rect.unit (s := S256) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let v2 : Index := Scalar.indexCast v1
  let v3 : BitVec 32 := pf.at 0 (Rect.unit (s := S256) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S256 : S_.BroadcastsInDim S256 (![] : Fin 0 → Fin S256.rank)
  shapeCasts_S1000x256_S1000x1x256 : S1000x256.ShapeCasts S1000x1x256
  numel1_S1 : S1.numel = 1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S524288x256.size a
  hwx0_0 : ∀ i : grid0.Coords, EltTy.bits .f32 = 32 ∨ (Rect.block (s := S524288x256) S2048x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S524288x256.size a
  hwx0_3 : ∀ i : grid0.Coords, EltTy.bits .f32 = 32 ∨ (Rect.block (s := S524288x256) S2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev spec0_0 : Pipeline.WinSpec sig grid0.rank :=
  Pipeline.WinSpec.ofSpec (Memref.whole main_arg0) S2048x256.size reads0_0 false false 2 stage0_0 sem0_0 nbuf0_0 hstage0_0

abbrev spec0_1 : Pipeline.WinSpec sig grid0.rank :=
  Pipeline.WinSpec.ofSpec (Memref.whole main_arg3) S1x256x256.size reads0_1 false false 2 stage0_1 sem0_1 nbuf0_1 hstage0_1

abbrev spec0_2 : Pipeline.WinSpec sig grid0.rank :=
  Pipeline.WinSpec.ofSpec (Memref.whole main_v1) S1x1x256.size reads0_2 false false 2 stage0_2 sem0_2 nbuf0_2 hstage0_2

abbrev spec0_3 : Pipeline.WinSpec sig grid0.rank :=
  Pipeline.WinSpec.ofSpec (Memref.whole main_v2) S2048x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S1000x256x256.size a), EltTy.bits .f32 = 32 ∨ (Rect.block (s := S1000x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S1000x1x256.size a), EltTy.bits .f32 = 32 ∨ (Rect.block (s := S1000x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S524288x256 : Shape := ⟨2, ![524288, 256]⟩
abbrev S257 : Shape := ⟨1, ![257]⟩
abbrev S256 : Shape := ⟨1, ![256]⟩
abbrev S1000x256x256 : Shape := ⟨3, ![1000, 256, 256]⟩
abbrev S1000x256 : Shape := ⟨2, ![1000, 256]⟩
abbrev S256x2048x256 : Shape := ⟨3, ![256, 2048, 256]⟩
abbrev S_ : Shape := ⟨0, ![]⟩
abbrev S256x1 : Shape := ⟨2, ![256, 1]⟩
abbrev S256x256x256 : Shape := ⟨3, ![256, 256, 256]⟩
abbrev S256x256 : Shape := ⟨2, ![256, 256]⟩
abbrev S256x1x256 : Shape := ⟨3, ![256, 1, 256]⟩

abbrev nBuf : Space → Nat
  | .hbm => 29
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S257, .i32⟩
  | .hbm, ⟨2, _⟩ => ⟨S256, .i32⟩
  | .hbm, ⟨3, _⟩ => ⟨S1000x256x256, .f32⟩
  | .hbm, ⟨4, _⟩ => ⟨S1000x256, .f32⟩
  | .hbm, ⟨5, _⟩ => ⟨S256x2048x256, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256x256x256, .f32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S256x256, .f32⟩
  | .hbm, ⟨24, _⟩ => ⟨S256x2048x256, .f32⟩
  | .hbm, ⟨25, _⟩ => ⟨S256x1x256, .f32⟩
  | .hbm, ⟨26, _⟩ => ⟨S256x2048x256, .f32⟩
  | .hbm, ⟨27, _⟩ => ⟨S256x2048x256, .f32⟩
  | .hbm, ⟨28, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  shapeCasts_S524288x256_S256x2048x256 : S524288x256.ShapeCasts S256x2048x256
  bcast_S_S256 : S_.BroadcastsInDim S256 (![] : Fin 0 → Fin S256.rank)
  bcast_S256_S256x1_0 : S256.BroadcastsInDim S256x1 (![0] : Fin 1 → Fin S256x1.rank)
  bcast_S256x256_S256x1x256_0_2 : S256x256.BroadcastsInDim S256x1x256 (![0, 2] : Fin 2 → Fin S256x1x256.rank)
  bcast_S256x1x256_S256x2048x256_0_1_2 : S256x1x256.BroadcastsInDim S256x2048x256 (![0, 1, 2] : Fin 3 → Fin S256x2048x256.rank)
  shapeCasts_S256x2048x256_S524288x256 : S256x2048x256.ShapeCasts S524288x256
  gather_S1000x256x256_S256x1_S256x256x256_12_0_n_n_0_1_1256256_wf : GatherDims.WF S1000x256x256 S256x1 S256x256x256 [1, 2] [0] [] [0] [] 1 ![1, 256, 256]
  gather_S1000x256_S256x1_S256x256_1_0_n_n_0_1_1256_wf : GatherDims.WF S1000x256 S256x1 S256x256 [1] [0] [] [0] [] 1 ![1, 256]
  dot_S256x2048x256_S256x256x256_S256x2048x256_2_1_1_2_0_0_wf : DotDims.WF S256x2048x256 S256x256x256 S256x2048x256 [2] [1] [1] [2] [0] [0]

variable [Facts₀]

def gather_S1000x256x256_S256x1_S256x256x256_12_0_n_n_0_1_1256256 : GatherDims S1000x256x256 S256x1 S256x256x256 where
  offsetDims := [1, 2]
  collapsedSliceDims := [0]
  operandBatchingDims := []
  startIndicesBatchingDims := []
  startIndexMap := [0]
  indexVectorDim := 1
  sliceSizes := ![1, 256, 256]
  wf := gather_S1000x256x256_S256x1_S256x256x256_12_0_n_n_0_1_1256256_wf
def gather_S1000x256_S256x1_S256x256_1_0_n_n_0_1_1256 : GatherDims S1000x256 S256x1 S256x256 where
  offsetDims := [1]
  collapsedSliceDims := [0]
  operandBatchingDims := []
  startIndicesBatchingDims := []
  startIndexMap := [0]
  indexVectorDim := 1
  sliceSizes := ![1, 256]
  wf := gather_S1000x256_S256x1_S256x256_1_0_n_n_0_1_1256_wf
def dot_S256x2048x256_S256x256x256_S256x2048x256_2_1_1_2_0_0 : DotDims S256x2048x256 S256x256x256 S256x2048x256 where
  lhsContracting := [2]
  rhsContracting := [1]
  lhsNonContracting := [1]
  rhsNonContracting := [2]
  lhsBatch := [0]
  rhsBatch := [0]
  wf := dot_S256x2048x256_S256x256x256_S256x2048x256_2_1_1_2_0_0_wf

class Facts : Prop extends Facts₀ where

variable [Facts]
-- ==== Proof.HeadIndex.lean ====
/-
  The head index of a region, as the two programs compute it from the region's 32-bit word r.

  The kernel clips the word into [0, 999]: min 999 (max 0 r), signed. The reference first wraps a negative word
  (r + 1000 when r < 0) and then reads the table at the word taken signed and clamped into [0, 999]. For a word
  that is not negative the two agree: the wrap does nothing, and both clamps are min r 999. Whatever the word, the
  clipped one is below 1000.
-/
import Idealize.ShloMosaic.PureOps

namespace Cert.HeadIndex

open Idealize.ShloMosaic

theorem ofBool_eq_one (b : Bool) : BitVec.ofBool b = 1#1 ↔ b = true := by cases b <;> decide

theorem slt_iff (x y : BitVec 32) : x.slt y = true ↔ x.toInt < y.toInt := by
  unfold BitVec.slt; exact decide_eq_true_iff

theorem sle_iff (x y : BitVec 32) : x.sle y = true ↔ x.toInt ≤ y.toInt := by
  unfold BitVec.sle; exact decide_eq_true_iff

/-- A word below 2^31 reads the same signed and unsigned. -/
theorem toInt_of_lt (r : BitVec 32) (h : r.toNat < 2 ^ 31) : r.toInt = (r.toNat : Int) := by
  rw [BitVec.toInt_eq_toNat_cond]; split <;> omega

/-- A word from 2^31 on reads negative. -/
theorem toInt_of_ge (r : BitVec 32) (h : 2 ^ 31 ≤ r.toNat) : r.toInt = (r.toNat : Int) - 2 ^ 32 := by
  have := r.isLt
  rw [BitVec.toInt_eq_toNat_cond]; split <;> omega

theorem toInt_zero : (0#32 : BitVec 32).toInt = 0 := by decide
theorem toInt_999 : (999#32 : BitVec 32).toInt = 999 := by decide
theorem toNat_999 : (999#32 : BitVec 32).toNat = 999 := by decide
theorem toNat_zero : (0#32 : BitVec 32).toNat = 0 := by decide

/-- A word passes the signed test 0 ≤ r exactly when it is below 2^31. -/
theorem nonneg_iff (r : BitVec 32) : IntOp.cmpi .sge r 0#32 = 1#1 ↔ r.toNat < 2 ^ 31 := by
  show BitVec.ofBool ((0#32 : BitVec 32).sle r) = 1#1 ↔ _
  rw [ofBool_eq_one, sle_iff, toInt_zero]
  by_cases h : r.toNat < 2 ^ 31
  · rw [toInt_of_lt r h]; exact ⟨fun _ => h, fun _ => Int.natCast_nonneg _⟩
  · have h' : 2 ^ 31 ≤ r.toNat := Nat.le_of_not_lt h
    have := r.isLt
    rw [toInt_of_ge r h']
    exact ⟨fun hh => by omega, fun hh => absurd hh h⟩

/-- The clipped word: min r 999 for a word that is not negative, 0 for a negative one. -/
theorem clip_cases (r : BitVec 32) :
    (r.toNat < 2 ^ 31 ∧ (IntOp.minsi 999#32 (IntOp.maxsi 0#32 r)).toNat = min r.toNat 999) ∨
    (2 ^ 31 ≤ r.toNat ∧ (IntOp.minsi 999#32 (IntOp.maxsi 0#32 r)).toNat = 0) := by
  have hlt := r.isLt
  by_cases hr : r.toNat < 2 ^ 31
  · refine Or.inl ⟨hr, ?_⟩
    have hi := toInt_of_lt r hr
    have hm : IntOp.maxsi 0#32 r = r := by
      unfold IntOp.maxsi
      rw [if_neg]
      rw [slt_iff, toInt_zero, hi]; omega
    rw [hm]; unfold IntOp.minsi
    by_cases h : (999#32 : BitVec 32).slt r = true
    · rw [if_pos h, toNat_999]
      rw [slt_iff, toInt_999, hi] at h; omega
    · rw [if_neg h]
      rw [slt_iff, toInt_999, hi] at h; omega
  · have hr' : 2 ^ 31 ≤ r.toNat := Nat.le_of_not_lt hr
    refine Or.inr ⟨hr', ?_⟩
    have hi := toInt_of_ge r hr'
    have hm : IntOp.maxsi 0#32 r = 0#32 := by
      unfold IntOp.maxsi
      rw [if_pos]
      rw [slt_iff, toInt_zero, hi]; omega
    rw [hm]; unfold IntOp.minsi
    rw [if_neg, toNat_zero]
    rw [slt_iff, toInt_999, toInt_zero]; omega

/-- The clipped word is a head of the table, whatever the word. -/
theorem clip_lt (r : BitVec 32) : (IntOp.minsi 999#32 (IntOp.maxsi 0#32 r)).toNat < 1000 := by
  rcases clip_cases r with ⟨_, h⟩ | ⟨_, h⟩ <;> omega

/-- For a word that is not negative, the clipped word is min r 999. -/
theorem clip_eq (r : BitVec 32) (hr : r.toNat < 2 ^ 31) :
    (IntOp.minsi 999#32 (IntOp.maxsi 0#32 r)).toNat = min r.toNat 999 := by
  rcases clip_cases r with ⟨_, h⟩ | ⟨h', _⟩
  · exact h
  · omega

/-- For a word that is not negative, the signed reading clamped into [0, 999] is min r 999. -/
theorem clamp_eq (r : BitVec 32) (hr : r.toNat < 2 ^ 31) : min r.toInt.toNat (1000 - 1) = min r.toNat 999 := by
  rw [toInt_of_lt r hr]; omega

/-- For a word that is not negative, the wrap of negative words leaves it alone. -/
theorem wrap_eq (r : BitVec 32) (hr : r.toNat < 2 ^ 31) :
    Scalar.select (IntOp.cmpi .slt r 0#32) (IntOp.addi r 1000#32) r = r := by
  unfold Scalar.select
  rw [if_neg]
  show ¬ (BitVec.ofBool (r.slt 0#32) = 1#1)
  rw [ofBool_eq_one, slt_iff, toInt_zero, toInt_of_lt r hr]; omega

end Cert.HeadIndex
-- ==== Proof.KernelTable.lean ====
/-
  The region's prefetched table and the side condition of the blocks it selects.

  The table the region is launched with is not an argument: the host operations before the region compute it from the
  third argument, word by word, as min 999 (max 0 r) (signed). So every word of the table is below 1000 whatever the
  argument holds, and the blocks the index maps select with it — matrix block (word, 0, 0) of the [1000, 256, 256]
  table, bias block (word, 0, 0) of the [1000, 1, 256] one — lie inside their arrays at every grid point.
-/
import proofs.«417317_j59760174956791_3_alg».proof.Proof.Gen.Kernel.Frame
import proofs.«417317_j59760174956791_3_alg».proof.Proof.HeadIndex
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table as the region finds it: the third argument's words clipped into [0, 999]. -/
theorem tbl_eq :
    (tbl m 0 : S256.Idx → BitVec 32)
      = minsi (broadcastInDim S256 ![] bcast_S_S256 (constantI S_ 32 999#32))
          (maxsi (broadcastInDim S256 ![] bcast_S_S256 (constantI S_ 32 0#32)) (m (((0 : Dev nD) : Thread nD τ).loc main_arg2))) := by
  unfold tbl
  show V m 0 main_v0 = _
  dsimp only [V]
  simp only [hostOps0, hostOps0_1, hostOps0_2, List.flatten_cons, List.flatten_nil, List.append_nil, List.cons_append,
    List.nil_append]
  after_results
  rfl

/-- One word of the table. -/
theorem tbl_word (x : S256.Idx) :
    (tbl m 0 : S256.Idx → BitVec 32) x = IntOp.minsi 999#32 (IntOp.maxsi 0#32 (m (((0 : Dev nD) : Thread nD τ).loc main_arg2) x)) := by
  rw [tbl_eq]; rfl

/-- Every word of the table names a head. -/
theorem tbl_lt (x : S256.Idx) : ((tbl m 0 : S256.Idx → BitVec 32) x).toNat < 1000 := by
  rw [tbl_word]; exact Cert.HeadIndex.clip_lt _

/-- The side condition of the table-indexed blocks, with no condition on the arguments. -/
theorem ok : Ok m := by
  refine ⟨fun i => ?_, fun i => ?_⟩
  · obtain ⟨w, hw, e⟩ : ∃ w : BitVec 32, w.toNat < 1000 ∧ cc0_transform_1 k0_off1_inb numel1_S1 (tbl m) i = ![w.toNat, 0, 0] :=
      ⟨_, tbl_lt m _, rfl⟩
    refine ⟨fun a => ?_, Or.inl rfl⟩
    rw [e]
    fin_cases a <;> simp [S1x256x256, S1000x256x256] <;> omega
  · obtain ⟨w, hw, e⟩ : ∃ w : BitVec 32, w.toNat < 1000 ∧ cc0_transform_2 k0_off1_inb numel1_S1 (tbl m) i = ![w.toNat, 0, 0] :=
      ⟨_, tbl_lt m _, rfl⟩
    refine ⟨fun a => ?_, Or.inl rfl⟩
    rw [e]
    fin_cases a <;> simp [S1x1x256, S1000x1x256] <;> omega

end Cert.Kernel.Table

end
-- ==== Proof.KernelIdealTable.lean ====
/-
  The region's prefetched table and the side condition of the blocks it selects.

  The table the region is launched with is not an argument: the host operations before the region compute it from the
  third argument, word by word, as min 999 (max 0 r) (signed). So every word of the table is below 1000 whatever the
  argument holds, and the blocks the index maps select with it — matrix block (word, 0, 0) of the [1000, 256, 256]
  table, bias block (word, 0, 0) of the [1000, 1, 256] one — lie inside their arrays at every grid point.
-/
import proofs.«417317_j59760174956791_3_alg».proof.Proof.Gen.KernelIdeal.Frame
import proofs.«417317_j59760174956791_3_alg».proof.Proof.HeadIndex
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table as the region finds it: the third argument's words clipped into [0, 999]. -/
theorem tbl_eq :
    (tbl m 0 : S256.Idx → BitVec 32)
      = minsi (broadcastInDim S256 ![] bcast_S_S256 (constantI S_ 32 999#32))
          (maxsi (broadcastInDim S256 ![] bcast_S_S256 (constantI S_ 32 0#32)) (m (((0 : Dev nD) : Thread nD τ).loc main_arg2))) := by
  unfold tbl
  show V m 0 main_v0 = _
  dsimp only [V]
  simp only [hostOps0, hostOps0_1, hostOps0_2, List.flatten_cons, List.flatten_nil, List.append_nil, List.cons_append,
    List.nil_append]
  after_results
  rfl

/-- One word of the table. -/
theorem tbl_word (x : S256.Idx) :
    (tbl m 0 : S256.Idx → BitVec 32) x = IntOp.minsi 999#32 (IntOp.maxsi 0#32 (m (((0 : Dev nD) : Thread nD τ).loc main_arg2) x)) := by
  rw [tbl_eq]; rfl

/-- Every word of the table names a head. -/
theorem tbl_lt (x : S256.Idx) : ((tbl m 0 : S256.Idx → BitVec 32) x).toNat < 1000 := by
  rw [tbl_word]; exact Cert.HeadIndex.clip_lt _

/-- The side condition of the table-indexed blocks, with no condition on the arguments. -/
theorem ok : Ok m := by
  refine ⟨fun i => ?_, fun i => ?_⟩
  · obtain ⟨w, hw, e⟩ : ∃ w : BitVec 32, w.toNat < 1000 ∧ cc0_transform_1 k0_off1_inb numel1_S1 (tbl m) i = ![w.toNat, 0, 0] :=
      ⟨_, tbl_lt m _, rfl⟩
    refine ⟨fun a => ?_, Or.inl rfl⟩
    rw [e]
    fin_cases a <;> simp [S1x256x256, S1000x256x256] <;> omega
  · obtain ⟨w, hw, e⟩ : ∃ w : BitVec 32, w.toNat < 1000 ∧ cc0_transform_2 k0_off1_inb numel1_S1 (tbl m) i = ![w.toNat, 0, 0] :=
      ⟨_, tbl_lt m _, rfl⟩
    refine ⟨fun a => ?_, Or.inl rfl⟩
    rw [e]
    fin_cases a <;> simp [S1x1x256, S1000x1x256] <;> omega

end Cert.KernelIdeal.Table

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KernelPayload.lean ====
/-
  What the kernel body leaves in the output block, and that value at an index.

  The body loads the point's input block x (2048 × 256), matrix block w (1 × 256 × 256) and bias block b (1 × 1 × 256),
  and stores one value over the whole output block: the product of x by w seen as 256 × 256, accumulated onto zero,
  plus b seen as one row and repeated down the 2048 rows. (The operands' change of format before the product is the
  identity on ideal values.) At (s, o) that is Σ_k x[s, k] · w[0, k, o] + b[0, 0, o].
-/
import proofs.«417317_j59760174956791_3_alg».proof.Proof.Gen.KernelIdeal.Frame
import proofs.«417317_j59760174956791_3_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.TcCoe Idealize.ShloMosaic.Tactic Idealize.ShloMosaic.ValueIdx
open Idealize.SL Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Piece

variable {F : FTy → Type} [FloatOps F]

/-- The output block after the body: its one store covers the block, so the block holds the store's payload, a
    function of the three loaded blocks. -/
theorem out_piece (c : Dev nD) (i : grid0.Coords) (arg3 : Memref sig .tc .vmem S2048x256 .f32) (harg3 : arg3.IsWhole)
    (arg4 : Memref sig .tc .vmem S1x256x256 .f32) (harg4 : arg4.IsWhole) (arg5 : Memref sig .tc .vmem S1x1x256 .f32) (harg5 : arg5.IsWhole)
    (arg6 : Memref sig .tc .vmem S2048x256 .f32) (harg6 : arg6.IsWhole)
    (x0 : Vec F S2048x256 .f32) (x1 : Vec F S1x256x256 .f32) (x2 : Vec F S1x1x256 .f32) (xt0 : TbBuf0 (F := F) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz2]
  simp only [View.readAt_eq_ld, harg3.read_unread, harg4.read_unread, harg5.read_unread, View.ld_unit_zero (S := S2048x256) hz2,
    View.ld_unit_zero (S := S1x256x256) hz3, View.ld_unit_zero (S := S1x1x256) hz3]

end Piece

/-- The matrix block seen as 256 × 256, at (κ, o). -/
theorem w_apply (x1 : Vec Ideal S1x256x256 .f32) (κ o : Fin 256) :
    shapeCast S256x256 x1 shapeCasts_S1x256x256_S256x256 (ix2 κ o) = x1 (ix3 (0 : Fin 1) κ o) :=
  shapeCast_apply x1 shapeCasts_S1x256x256_S256x256 (ix2 κ o) (ix3 (0 : Fin 1) κ o) (by
    rewrite [Shape.rowMajor_val_three, Shape.rowMajor_val_two]
    show (0 * 256 + κ.val) * 256 + o.val = κ.val * 256 + o.val
    omega)

/-- The bias block seen as one row and repeated down the rows, at (s, o). -/
theorem b_apply (x2 : Vec Ideal S1x1x256 .f32) (s : Fin 2048) (o : Fin 256) :
    broadcastTo S2048x256 (shapeCast S1x256 x2 shapeCasts_S1x1x256_S1x256) broadcasts_S1x256_S2048x256 (ix2 s o)
      = x2 (ix3 (0 : Fin 1) (0 : Fin 1) o) := by
  rw [broadcastTo_apply _ broadcasts_S1x256_S2048x256 (ix2 s o) (ix2 (0 : Fin 1) o) (fun a => match a with
    | ⟨0, _⟩ => by show (0 : Nat) = if (1 : Nat) = 1 then 0 else s.val; rw [if_pos rfl]
    | ⟨1, _⟩ => by show o.val = if (256 : Nat) = 1 then 0 else o.val; rw [if_neg (by decide)])]
  exact shapeCast_apply x2 shapeCasts_S1x1x256_S1x256 (ix2 (0 : Fin 1) o) (ix3 (0 : Fin 1) (0 : Fin 1) o) (by
    rewrite [Shape.rowMajor_val_three, Shape.rowMajor_val_two]
    show (0 * 1 + 0) * 256 + o.val = 0 * 256 + o.val
    omega)

/-- THE PAYLOAD AT (s, o). -/
theorem pay_apply (x0 : Vec Ideal S2048x256 .f32) (x1 : Vec Ideal S1x256x256 .f32) (x2 : Vec Ideal S1x1x256 .f32)
    (s : Fin 2048) (o : Fin 256) :
    k0_pay1 (F := Ideal) x0 x1 x2 (ix2 s o)
      = (∑ k : Fin 256, x0 (ix2 s k) * x1 (ix3 (0 : Fin 1) k o)) + x2 (ix3 (0 : Fin 1) (0 : Fin 1) o) := by
  unfold k0_pay1
  show (FloatOps.matmul (F := Ideal) dot_S2048x256_S256x256_S2048x256_1_0_0_1_n_n none (truncf (F := Ideal) .bf16 x0 bitsLt_bf16_f32)
      (truncf (F := Ideal) .bf16 (shapeCast S256x256 x1 shapeCasts_S1x256x256_S256x256) bitsLt_bf16_f32)
      (constant (F := Ideal) S2048x256 .f32 0x00000000#32) (ix2 s o) : EReal)
    + broadcastTo S2048x256 (shapeCast S1x256 x2 shapeCasts_S1x1x256_S1x256) broadcasts_S1x256_S2048x256 (ix2 s o) = _
  rw [b_apply, Cert.LibDot.matmul_rows_apply dot_S2048x256_S256x256_S2048x256_1_0_0_1_n_n rfl rfl rfl rfl rfl rfl]
  refine congrArg (· + x2 (ix3 (0 : Fin 1) (0 : Fin 1) o)) ?_
  rw [constant_apply, Ideal.ofBits_zero_f32, zero_add]
  refine Finset.sum_congr rfl fun κ _ => ?_
  rw [truncf_apply, truncf_apply, w_apply]

end Cert.KernelIdeal.Payload

end
-- ==== Proof.Spec.lean ====
/-
  What both programs compute, as one function of the argument arrays.

  The 524288 rows of the input come in 256 regions of 2048 consecutive rows. Region q carries a 32-bit word reg[q];
  the head it selects is that word clamped to the last head, min reg[q] 999 (the word is not negative). Row p of the
  result is row p of the input times the selected head's 256 × 256 matrix, plus the selected head's bias row:

    out[p, o] = Σ_k x[p, k] · W[head, k, o] + B[head, o],   head = min reg[p / 2048] 999.
-/
import Idealize.ShloMosaic.PureOps.Ideal
import Idealize.ShloMosaic.Lib.ValueIdx

noncomputable section

open scoped BigOperators

namespace Cert.Spec

open Idealize.ShloMosaic Idealize.ShloMosaic.ValueIdx

/-- The head a region's word selects. -/
def head (r : BitVec 32) : Fin 1000 := ⟨min r.toNat 999, by omega⟩

/-- The region a row lies in. -/
def region (p : Fin 524288) : Fin 256 := ⟨p.val / 2048, by have := p.isLt; omega⟩

/-- The result at row p, column o. -/
def outAt (x : FVec Ideal ⟨2, ![524288, 256]⟩ .f32) (reg : IVec ⟨1, ![256]⟩ 32) (w : FVec Ideal ⟨3, ![1000, 256, 256]⟩ .f32)
    (b : FVec Ideal ⟨2, ![1000, 256]⟩ .f32) (p : Fin 524288) (o : Fin 256) : EReal :=
  (∑ k : Fin 256, x (ix2 p k) * w (ix3 (head (reg (ix1 (region p)))) k o)) + b (ix2 (head (reg (ix1 (region p)))) o)

/-- The whole result array. -/
def out (x : FVec Ideal ⟨2, ![524288, 256]⟩ .f32) (reg : IVec ⟨1, ![256]⟩ 32) (w : FVec Ideal ⟨3, ![1000, 256, 256]⟩ .f32)
    (b : FVec Ideal ⟨2, ![1000, 256]⟩ .f32) : FVec Ideal ⟨2, ![524288, 256]⟩ .f32 :=
  fun j => outAt x reg w b (j 0) (j 1)

theorem out_apply (x : FVec Ideal ⟨2, ![524288, 256]⟩ .f32) (reg : IVec ⟨1, ![256]⟩ 32) (w : FVec Ideal ⟨3, ![1000, 256, 256]⟩ .f32)
    (b : FVec Ideal ⟨2, ![1000, 256]⟩ .f32) (p : Fin 524288) (o : Fin 256) :
    out x reg w b (ix2 p o) = outAt x reg w b p o := rfl

end Cert.Spec

end
-- ==== Proof.KernelValue.lean ====
/-
  The kernel's result array is the specification's, when no region word is negative.

  Grid point t (of 256) works on region t: its input and output blocks are rows 2048 t … 2048 t + 2047, and its matrix
  and bias blocks are those of the head the region's table word names. The table word is the region's word clipped
  into [0, 999], which for a word that is not negative is min word 999, the specification's head. So what point t
  writes back is block t of the specification's array; the 256 blocks cover the array; and the array after the run is
  the specification's.
-/
import proofs.«417317_j59760174956791_3_alg».proof.Proof.KernelPayload
import proofs.«417317_j59760174956791_3_alg».proof.Proof.KernelIdealTable
import proofs.«417317_j59760174956791_3_alg».proof.Proof.Spec
import proofs.«417317_j59760174956791_3_alg».proof.Proof.HeadIndex
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.KernelIdeal.Payload Cert.KernelIdeal.Table
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The index maps over the grid -/

/-- Point t's input and output blocks are block row t; the table is read at word t. -/
theorem idx_facts : ∀ t : Fin grid0.N,
    cc0_transform_0 (grid0.coords t) (0 : Fin 2) = t.val ∧ cc0_transform_0 (grid0.coords t) (1 : Fin 2) = 0
    ∧ cc0_transform_3 (grid0.coords t) (0 : Fin 2) = t.val ∧ cc0_transform_3 (grid0.coords t) (1 : Fin 2) = 0
    ∧ k0_off1 (grid0.coords t) (0 : Fin 1) = t.val := by
  decide +kernel

/-- Row s of block row t. -/
def row (t : Fin 256) (s : Fin 2048) : Fin 524288 := ⟨t.val * 2048 + s.val, by have := t.isLt; have := s.isLt; omega⟩

theorem region_row (t : Fin 256) (s : Fin 2048) : Cert.Spec.region (row t s) = t :=
  Fin.ext (by have := s.isLt; show (t.val * 2048 + s.val) / 2048 = t.val; omega)

/-- The head point t's table word names. -/
def hd (t : Fin 256) : Fin 1000 := ⟨((tbl m 0 : S256.Idx → BitVec 32) (ix1 t)).toNat, tbl_lt m _⟩

/-- For a region word that is not negative it is the specification's head. -/
theorem hd_eq (hnn : ∀ q, (m (((0 : Dev nD) : Thread nD τ).loc main_arg2) q).toNat < 2 ^ 31) (t : Fin 256) :
    hd m t = Cert.Spec.head (m (((0 : Dev nD) : Thread nD τ).loc main_arg2) (ix1 t)) := by
  apply Fin.ext
  show ((tbl m 0 : S256.Idx → BitVec 32) (ix1 t)).toNat = min (m (((0 : Dev nD) : Thread nD τ).loc main_arg2) (ix1 t)).toNat 999
  rw [tbl_word]
  exact Cert.HeadIndex.clip_eq _ (hnn _)

/-- The table element the index maps read at point t is word t. -/
theorem word_idx (t : Fin grid0.N) (h1 : 0 < S1.numel) :
    (Rect.unit (s := S256) (k0_off1 (grid0.coords t)) S1.size (k0_off1_inb (grid0.coords t))).emb (Shape.Idx.first h1)
      = ix1 (⟨t.val, t.isLt⟩ : Fin 256) := by
  have e := (idx_facts t).2.2.2.2
  funext a
  apply Fin.ext
  match a with
  | ⟨0, _⟩ =>
    show k0_off1 (grid0.coords t) (0 : Fin 1) + 1 * (Shape.Idx.first h1 (0 : Fin 1)).val = t.val
    have : (Shape.Idx.first h1 (0 : Fin 1)).val = 0 := by
      have := (Shape.Idx.first h1 (0 : Fin 1)).isLt
      have e1 : S1.size (0 : Fin 1) = 1 := by decide
      omega
    rw [this, e]; omega

/-- Point t's matrix block index on the head axis. -/
theorem tr1 (t : Fin grid0.N) :
    cc0_transform_1 k0_off1_inb numel1_S1 (tbl m) (grid0.coords t) (0 : Fin 3) = (hd m ⟨t.val, t.isLt⟩).val := by
  show ((tbl m 0 : S256.Idx → BitVec 32) ((Rect.unit (s := S256) (k0_off1 (grid0.coords t)) S1.size (k0_off1_inb (grid0.coords t))).emb
    (Shape.Idx.first (numel1_S1.symm ▸ Nat.one_pos)))).toNat = _
  rw [word_idx]
  rfl

/-- Point t's bias block index on the head axis. -/
theorem tr2 (t : Fin grid0.N) :
    cc0_transform_2 k0_off1_inb numel1_S1 (tbl m) (grid0.coords t) (0 : Fin 3) = (hd m ⟨t.val, t.isLt⟩).val := by
  show ((tbl m 0 : S256.Idx → BitVec 32) ((Rect.unit (s := S256) (k0_off1 (grid0.coords t)) S1.size (k0_off1_inb (grid0.coords t))).emb
    (Shape.Idx.first (numel1_S1.symm ▸ Nat.one_pos)))).toNat = _
  rw [word_idx]
  rfl

/-! ## The array the bias window stages -/

/-- The bias table with a unit middle axis, as the host operation before the region leaves it. -/
theorem V_bias (c : Dev nD) :
    (V m c main_v1 : S1000x1x256.Idx → Ideal .f32)
      = shapeCast S1000x1x256 (m ((c : Thread nD τ).loc main_arg4)) shapeCasts_S1000x256_S1000x1x256 := by
  dsimp only [V]
  simp only [hostOps0, hostOps0_1, hostOps0_2, List.flatten_cons, List.flatten_nil, List.append_nil, List.cons_append,
    List.nil_append]
  after_results
  rfl

theorem bias_apply (c : Dev nD) (h : Fin 1000) (o : Fin 256) :
    (V m c main_v1 : S1000x1x256.Idx → Ideal .f32) (ix3 h (0 : Fin 1) o) = m ((c : Thread nD τ).loc main_arg4) (ix2 h o) := by
  rw [V_bias]
  exact shapeCast_apply _ shapeCasts_S1000x256_S1000x1x256 (ix3 h (0 : Fin 1) o) (ix2 h o) (by
    rewrite [Shape.rowMajor_val_two, Shape.rowMajor_val_three]
    show h.val * 256 + o.val = (h.val * 1 + 0) * 256 + o.val
    omega)

/-! ## The blocks at a point -/

variable (hO : Ok m)

/-- The three input blocks of point t, at their literal types. -/
abbrev xblk (c : Dev nD) (t : Fin (cfgM m hO).N) : Vec Ideal S2048x256 .f32 := iblk m hO c 0 t
abbrev wblk (c : Dev nD) (t : Fin (cfgM m hO).N) : Vec Ideal S1x256x256 .f32 := iblk m hO c 1 t
abbrev bblk (c : Dev nD) (t : Fin (cfgM m hO).N) : Vec Ideal S1x1x256 .f32 := iblk m hO c 2 t

theorem xblk_apply (c : Dev nD) (t : Fin (cfgM m hO).N) (s : Fin 2048) (k : Fin 256) :
    xblk m hO c t (ix2 s k) = m ((c : Thread nD τ).loc main_arg0) (ix2 (row ⟨t.val, t.isLt⟩ s) k) := by
  show V m c main_arg0 ((((cfgM m hO).win 0).blk t).view.emb (ix2 s k)) = _
  rw [V_main_arg0]
  refine congrArg _ (funext fun a => Fin.ext ?_)
  obtain ⟨e0, e1, -⟩ := idx_facts t
  match a with
  | ⟨0, _⟩ =>
    show cc0_transform_0 (grid0.coords t) (0 : Fin 2) * 2048 + 1 * s.val = t.val * 2048 + s.val
    rw [e0]; omega
  | ⟨1, _⟩ =>
    show cc0_transform_0 (grid0.coords t) (1 : Fin 2) * 256 + 1 * k.val = k.val
    rw [e1]; omega

theorem wblk_apply (c : Dev nD) (t : Fin (cfgM m hO).N) (k o : Fin 256) :
    wblk m hO c t (ix3 (0 : Fin 1) k o) = m ((c : Thread nD τ).loc main_arg3) (ix3 (hd m ⟨t.val, t.isLt⟩) k o) := by
  show V m c main_arg3 ((((cfgM m hO).win 1).blk t).view.emb (ix3 (0 : Fin 1) k o)) = _
  rw [V_main_arg3]
  refine congrArg _ (funext fun a => Fin.ext ?_)
  match a with
  | ⟨0, _⟩ =>
    show cc0_transform_1 k0_off1_inb numel1_S1 (tbl m) (grid0.coords t) (0 : Fin 3) * 1 + 1 * 0 = (hd m ⟨t.val, t.isLt⟩).val
    rw [tr1]; omega
  | ⟨1, _⟩ =>
    show cc0_transform_1 k0_off1_inb numel1_S1 (tbl m) (grid0.coords t) (1 : Fin 3) * 256 + 1 * k.val = k.val
    show 0 * 256 + 1 * k.val = k.val
    omega
  | ⟨2, _⟩ =>
    show cc0_transform_1 k0_off1_inb numel1_S1 (tbl m) (grid0.coords t) (2 : Fin 3) * 256 + 1 * o.val = o.val
    show 0 * 256 + 1 * o.val = o.val
    omega

theorem bblk_apply (c : Dev nD) (t : Fin (cfgM m hO).N) (o : Fin 256) :
    bblk m hO c t (ix3 (0 : Fin 1) (0 : Fin 1) o) = m ((c : Thread nD τ).loc main_arg4) (ix2 (hd m ⟨t.val, t.isLt⟩) o) := by
  show (V m c main_v1 : S1000x1x256.Idx → Ideal .f32) ((((cfgM m hO).win 2).blk t).view.emb (ix3 (0 : Fin 1) (0 : Fin 1) o)) = _
  refine (congrArg (V m c main_v1 : S1000x1x256.Idx → Ideal .f32) (?_ : _ = ix3 (hd m ⟨t.val, t.isLt⟩) (0 : Fin 1) o)).trans
    (bias_apply m c (hd m ⟨t.val, t.isLt⟩) o)
  refine funext fun a => Fin.ext ?_
  match a with
  | ⟨0, _⟩ =>
    show cc0_transform_2 k0_off1_inb numel1_S1 (tbl m) (grid0.coords t) (0 : Fin 3) * 1 + 1 * 0 = (hd m ⟨t.val, t.isLt⟩).val
    rw [tr2]; omega
  | ⟨1, _⟩ =>
    show 0 * 1 + 1 * 0 = 0
    omega
  | ⟨2, _⟩ =>
    show 0 * 256 + 1 * o.val = o.val
    omega

/-- Entry (s, o) of point t's output block is entry (2048 t + s, o) of the array. -/
theorem oblk_emb (t : Fin (cfgM m hO).N) (s : Fin 2048) (o : Fin 256) :
    (((cfgM m hO).win 3).blk t).view.emb (ix2 s o) = ix2 (row ⟨t.val, t.isLt⟩ s) o := by
  obtain ⟨-, -, e2, e3, -⟩ := idx_facts t
  funext a
  apply Fin.ext
  match a with
  | ⟨0, _⟩ =>
    show cc0_transform_3 (grid0.coords t) (0 : Fin 2) * 2048 + 1 * s.val = t.val * 2048 + s.val
    rw [e2]; omega
  | ⟨1, _⟩ =>
    show cc0_transform_3 (grid0.coords t) (1 : Fin 2) * 256 + 1 * o.val = o.val
    rw [e3]; omega

/-! ## From blocks to the array -/

/-- The specification's array of the argument arrays, as the contents of the result buffer. -/
abbrev G (c : Dev nD) : S524288x256.Idx → Ideal .f32 :=
  Cert.Spec.out (m ((c : Thread nD τ).loc main_arg0)) (m ((c : Thread nD τ).loc main_arg2)) (m ((c : Thread nD τ).loc main_arg3))
    (m ((c : Thread nD τ).loc main_arg4))

/-- WHAT POINT t WRITES BACK is block t of the specification's array. -/
theorem flushed_eq (hnn : ∀ q, (m (((0 : Dev nD) : Thread nD τ).loc main_arg2) q).toNat < 2 ^ 31) (c : Dev nD)
    (t : Fin (cfgM m hO).N) :
    (dats m hO 0 c).flushed 3 t = (((cfgM m hO).win 3).blk t).view.read (Elt Ideal) (G m c) := by
  obtain rfl : c = 0 := Subsingleton.elim _ _
  show ((cfgM m hO).win 3).cut (grid0.coords t) ((dats m hO 0 0).after 3 t) = _
  rw [after0_3]
  show (outsAt0 m hO 0 t : S2048x256.Idx → Ideal .f32) = fun y => G m 0 ((((cfgM m hO).win 3).blk t).view.emb y)
  funext j
  obtain ⟨s, o, rfl⟩ : ∃ (s : Fin 2048) (o : Fin 256), j = ix2 s o := ⟨j 0, j 1, eq_ix2 j⟩
  refine (congrFun (out_piece (F := Ideal) (0 : Dev nD) (grid0.coords t) (ms0_0 m hO t) (hs0_0 m hO t) (ms0_1 m hO t) (hs0_1 m hO t)
    (ms0_2 m hO t) (hs0_2 m hO t) (ms0_3 m hO t) (hs0_3 m hO t) (xblk m hO 0 t) (wblk m hO 0 t) (bblk m hO 0 t) (tbl m 0)) (ix2 s o)).trans ?_
  refine (pay_apply (xblk m hO 0 t) (wblk m hO 0 t) (bblk m hO 0 t) s o).trans ?_
  refine Eq.trans ?_ (congrArg (G m 0) (oblk_emb m hO t s o)).symm
  show _ = Cert.Spec.outAt _ _ _ _ (row ⟨t.val, t.isLt⟩ s) o
  unfold Cert.Spec.outAt
  rw [region_row, ← hd_eq m hnn, bblk_apply]
  refine congrArg (· + _) (Finset.sum_congr rfl fun k _ => ?_)
  rw [xblk_apply, wblk_apply]

/-- An index of the array is in point t's block iff each coordinate is in the block's range on its axis. -/
theorem mem_blk (t : Fin (cfgM m hO).N) (i : S524288x256.Idx) :
    i ∈ (((cfgM m hO).win 3).blk t).view.set ↔ ∀ a : Fin 2, cc0_transform_3 (grid0.coords t) a * S2048x256.size a ≤ (i a).val
      ∧ (i a).val < cc0_transform_3 (grid0.coords t) a * S2048x256.size a + S2048x256.size a :=
  (Finset.ext_iff.mp (View.set_slice_whole main_v2 (((cfgM m hO).win 3).rect t)) i).trans Rect.mem_set_unit

/-- Every index of the array is in the block of the point its row's region names. -/
theorem cover (i : S524288x256.Idx) :
    ∃ t : Fin (cfgM m hO).N, ((cfgM m hO).win 3).flush t = true ∧ i ∈ (((cfgM m hO).win 3).blk t).view.set := by
  have h0 : (i 0).val < 524288 := (i 0).isLt
  have h1 : (i 1).val < 256 := (i 1).isLt
  have ht : (i 0).val / 2048 < grid0.N := by rw [N_0]; omega
  refine ⟨⟨(i 0).val / 2048, ht⟩, flush0_3 (adm m hO) _, ?_⟩
  rw [mem_blk]
  obtain ⟨-, -, e2, e3, -⟩ := idx_facts ⟨(i 0).val / 2048, ht⟩
  intro a
  match a with
  | ⟨0, _⟩ =>
    show cc0_transform_3 (grid0.coords ⟨(i 0).val / 2048, ht⟩) (0 : Fin 2) * 2048 ≤ (i 0).val
      ∧ (i 0).val < cc0_transform_3 (grid0.coords ⟨(i 0).val / 2048, ht⟩) (0 : Fin 2) * 2048 + 2048
    rw [e2]
    show (i 0).val / 2048 * 2048 ≤ (i 0).val ∧ (i 0).val < (i 0).val / 2048 * 2048 + 2048
    omega
  | ⟨1, _⟩ =>
    show cc0_transform_3 (grid0.coords ⟨(i 0).val / 2048, ht⟩) (1 : Fin 2) * 256 ≤ (i 1).val
      ∧ (i 1).val < cc0_transform_3 (grid0.coords ⟨(i 0).val / 2048, ht⟩) (1 : Fin 2) * 256 + 256
    rw [e3]
    omega

/-- THE ARRAY after the run is the specification's. -/
theorem final (hnn : ∀ q, (m (((0 : Dev nD) : Thread nD τ).loc main_arg2) q).toNat < 2 ^ 31) (c : Dev nD) :
    (dats m hO 0 c).arrAt 3 (cfgM m hO).N = G m c :=
  (dats m hO 0 c).arrAt_eq_of_cover 3 (G m c) (fun t _ => flushed_eq m hO hnn c t) (cover m hO)

/-! ## The run, read -/

/-- The frame run re-posted: the result array at the specification's of the argument arrays, the arguments unchanged. -/
theorem run (hnn : ∀ q, (m (((0 : Dev nD) : Thread nD τ).loc main_arg2) q).toNat < 2 ^ 31) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 3).trans (final m (ok m) hnn c),
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m (ok m) 0 c).arrAt_in 1 rfl _).trans ((A_eq m (ok m) c 1).trans (V_main_arg3 m c))),
      ((h c).2 main_arg4 (by decide : main_arg4 ∈ Pipeline.restRefs sig spec0)).trans (V_main_arg4 m c)⟩)
    (run_main m ρ (ok m))

end Cert.KernelIdeal.KValue

end
-- ==== Proof.RefGather.lean ====
/-
  The reference's two table reads, at an index.

  Each takes, for region q, the slice of the table that starts at the region's start index: the index read signed and
  clamped so that the slice fits, into [0, 999]. The matrix table [1000, 256, 256] gives a [256, 256, 256] array whose
  entry (q, a, b) is entry (start q, a, b) of the table; the bias table [1000, 256] gives a [256, 256] array whose entry
  (q, o) is entry (start q, o).
-/
import proofs.«417317_j59760174956791_3_alg».proof.Proof.Gen.ReferenceIdeal
import Idealize.ShloMosaic.Lib.ValueIdx

noncomputable section

namespace Cert.ReferenceIdeal.RefGather

open Cert.ReferenceIdeal Cert.ReferenceIdeal.Gen Idealize.ShloMosaic Idealize.ShloMosaic.ValueIdx

variable {α : Type}

/-- The start index of region q, clamped to the last head. -/
def startOf (idx : IVec S256x1 32) (q : Fin 256) : Fin 1000 :=
  ⟨min (idx (ix2 q (0 : Fin 1))).toInt.toNat (1000 - 1), by omega⟩

local notation "dW" => gather_S1000x256x256_S256x1_S256x256x256_12_0_n_n_0_1_1256256
local notation "dB" => gather_S1000x256_S256x1_S256x256_1_0_n_n_0_1_1256

/-! ## The matrix table -/

theorem siIdxW (q : Fin 256) (a b : Fin 256) (h : List.idxOf (0 : Fin S1000x256x256.rank) (dW).startIndexMap < (dW).startIndexMap.length) :
    (dW).siIdx (ix3 q a b) ⟨List.idxOf (0 : Fin S1000x256x256.rank) (dW).startIndexMap, h⟩ = ix2 q (0 : Fin 1) := by
  funext c; refine Fin.ext ?_
  match c with
  | ⟨0, _⟩ => rfl
  | ⟨1, _⟩ => rfl

/-- On the table's head axis the operand index is the clamped start. -/
theorem opW_0 (idx : IVec S256x1 32) (q : Fin 256) (a b : Fin 256) :
    ((dW).operandIdx (ix3 q a b) idx 0).val = (startOf idx q).val := by
  show (dW).start (ix3 q a b) idx 0 + (dW).batchCoord (ix3 q a b) 0 + (dW).offCoord (ix3 q a b) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin S1000x256x256.rank) ∈ (dW).startIndexMap from List.mem_singleton.mpr rfl)]
  rw [siIdxW]
  rfl

/-- On the two matrix axes the operand index is the result's own coordinate. -/
theorem opW_1 (idx : IVec S256x1 32) (q : Fin 256) (a b : Fin 256) :
    ((dW).operandIdx (ix3 q a b) idx 1).val = a.val := by
  show (dW).start (ix3 q a b) idx 1 + (dW).batchCoord (ix3 q a b) 1 + (dW).offCoord (ix3 q a b) 1 = _
  rw [GatherDims.batchCoord_eq_zero _ _ _ List.not_mem_nil, Nat.add_zero]
  unfold GatherDims.start
  rw [dif_neg (show ¬ (1 : Fin S1000x256x256.rank) ∈ (dW).startIndexMap by decide), Nat.zero_add]
  unfold GatherDims.offCoord
  rw [dif_pos (show (1 : Fin S1000x256x256.rank) ∈ (dW).sKept by decide)]
  rfl

theorem opW_2 (idx : IVec S256x1 32) (q : Fin 256) (a b : Fin 256) :
    ((dW).operandIdx (ix3 q a b) idx 2).val = b.val := by
  show (dW).start (ix3 q a b) idx 2 + (dW).batchCoord (ix3 q a b) 2 + (dW).offCoord (ix3 q a b) 2 = _
  rw [GatherDims.batchCoord_eq_zero _ _ _ List.not_mem_nil, Nat.add_zero]
  unfold GatherDims.start
  rw [dif_neg (show ¬ (2 : Fin S1000x256x256.rank) ∈ (dW).startIndexMap by decide), Nat.zero_add]
  unfold GatherDims.offCoord
  rw [dif_pos (show (2 : Fin S1000x256x256.rank) ∈ (dW).sKept by decide)]
  rfl

/-- The matrix table read at (q, a, b). -/
theorem gatherW_apply (x : S1000x256x256.Idx → α) (idx : IVec S256x1 32) (q : Fin 256) (a b : Fin 256) :
    Host.gather dW x idx (ix3 q a b) = x (ix3 (startOf idx q) a b) := by
  unfold Host.gather
  congr 1
  funext c
  refine Fin.ext ?_
  match c with
  | ⟨0, _⟩ => exact opW_0 idx q a b
  | ⟨1, _⟩ => exact opW_1 idx q a b
  | ⟨2, _⟩ => exact opW_2 idx q a b

/-! ## The bias table -/

theorem siIdxB (q : Fin 256) (o : Fin 256) (h : List.idxOf (0 : Fin S1000x256.rank) (dB).startIndexMap < (dB).startIndexMap.length) :
    (dB).siIdx (ix2 q o) ⟨List.idxOf (0 : Fin S1000x256.rank) (dB).startIndexMap, h⟩ = ix2 q (0 : Fin 1) := by
  funext c; refine Fin.ext ?_
  match c with
  | ⟨0, _⟩ => rfl
  | ⟨1, _⟩ => rfl

theorem opB_0 (idx : IVec S256x1 32) (q : Fin 256) (o : Fin 256) :
    ((dB).operandIdx (ix2 q o) idx 0).val = (startOf idx q).val := by
  show (dB).start (ix2 q o) idx 0 + (dB).batchCoord (ix2 q o) 0 + (dB).offCoord (ix2 q o) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin S1000x256.rank) ∈ (dB).startIndexMap from List.mem_singleton.mpr rfl)]
  rw [siIdxB]
  rfl

theorem opB_1 (idx : IVec S256x1 32) (q : Fin 256) (o : Fin 256) :
    ((dB).operandIdx (ix2 q o) idx 1).val = o.val := by
  show (dB).start (ix2 q o) idx 1 + (dB).batchCoord (ix2 q o) 1 + (dB).offCoord (ix2 q o) 1 = _
  rw [GatherDims.batchCoord_eq_zero _ _ _ List.not_mem_nil, Nat.add_zero]
  unfold GatherDims.start
  rw [dif_neg (show ¬ (1 : Fin S1000x256.rank) ∈ (dB).startIndexMap by decide), Nat.zero_add]
  unfold GatherDims.offCoord
  rw [dif_pos (show (1 : Fin S1000x256.rank) ∈ (dB).sKept by decide)]
  rfl

/-- The bias table read at (q, o). -/
theorem gatherB_apply (x : S1000x256.Idx → α) (idx : IVec S256x1 32) (q : Fin 256) (o : Fin 256) :
    Host.gather dB x idx (ix2 q o) = x (ix2 (startOf idx q) o) := by
  unfold Host.gather
  congr 1
  funext c
  refine Fin.ext ?_
  match c with
  | ⟨0, _⟩ => exact opB_0 idx q o
  | ⟨1, _⟩ => exact opB_1 idx q o

end Cert.ReferenceIdeal.RefGather

end
-- ==== Proof.RefValue.lean ====
/-
  The reference's result is the specification, when no region word is negative.

  Read one operation at a time: the result at (p, o) is entry (q, s, o) of the [256, 2048, 256] sum, q = p / 2048 the
  row's region and s = p % 2048 its place in it; that entry is the batched product's, Σ_k x[p, k] · Wsel[q, k, o], plus
  the selected bias Bsel[q, o]. The selected tables are the two table reads at the region's start index: the word,
  wrapped when negative (nothing to do for a word that is not), read signed and clamped into [0, 999] — min word 999,
  the head the specification names.
-/
import proofs.«417317_j59760174956791_3_alg».proof.Proof.Gen.ReferenceIdeal.Read
import proofs.«417317_j59760174956791_3_alg».proof.Proof.RefGather
import proofs.«417317_j59760174956791_3_alg».proof.Proof.Spec
import proofs.«417317_j59760174956791_3_alg».proof.Proof.HeadIndex

noncomputable section

open scoped BigOperators

namespace Cert.ReferenceIdeal.RefValue

open Cert.ReferenceIdeal Cert.ReferenceIdeal.Gen Cert.ReferenceIdeal.Read Cert.ReferenceIdeal.RefGather
open Idealize.ShloMosaic Idealize.ShloMosaic.ValueIdx

variable (x0 : (⟨S524288x256, .f32⟩ : BufTy).Contents (Elt Ideal)) (x2 : (⟨S256, .i32⟩ : BufTy).Contents (Elt Ideal))
  (x3 : (⟨S1000x256x256, .f32⟩ : BufTy).Contents (Elt Ideal)) (x4 : (⟨S1000x256, .f32⟩ : BufTy).Contents (Elt Ideal))

/-- The wrap of negative words leaves words that are not negative alone: the matrix read's index vector. -/
theorem wrappedW (h : ∀ q, (x2 q).toNat < 2 ^ 31) : val_main_v5 (F := Ideal) x2 = x2 := by
  funext q
  rw [val_main_v5_apply, val_main_v2_apply, val_main_v4_apply, val_main_v1_apply, val_main_v3_apply, val_main_c_apply,
    val_main_c_0_apply]
  exact Cert.HeadIndex.wrap_eq _ (h q)

/-- The same for the bias read's index vector. -/
theorem wrappedB (h : ∀ q, (x2 q).toNat < 2 ^ 31) : val_main_v12 (F := Ideal) x2 = x2 := by
  funext q
  rw [val_main_v12_apply, val_main_v9_apply, val_main_v11_apply, val_main_v8_apply, val_main_v10_apply, val_main_c_1_apply,
    val_main_c_2_apply]
  exact Cert.HeadIndex.wrap_eq _ (h q)

theorem idx6 (q : Fin 256) : idx_main_v6 (ix2 q (0 : Fin 1)) = ix1 q := by
  funext a; match a with | ⟨0, _⟩ => rfl

theorem idx13 (q : Fin 256) : idx_main_v13 (ix2 q (0 : Fin 1)) = ix1 q := by
  funext a; match a with | ⟨0, _⟩ => rfl

/-- The matrix read's start for region q is the head of the region's word. -/
theorem startW (h : ∀ q, (x2 q).toNat < 2 ^ 31) (q : Fin 256) :
    startOf (val_main_v6 (F := Ideal) x2) q = Cert.Spec.head (x2 (ix1 q)) := by
  apply Fin.ext
  show min ((val_main_v6 (F := Ideal) x2) (ix2 q (0 : Fin 1))).toInt.toNat (1000 - 1) = min (x2 (ix1 q)).toNat 999
  rw [val_main_v6_apply, wrappedW x2 h, idx6]
  exact Cert.HeadIndex.clamp_eq _ (h _)

/-- The bias read's start for region q is the same head. -/
theorem startB (h : ∀ q, (x2 q).toNat < 2 ^ 31) (q : Fin 256) :
    startOf (val_main_v13 (F := Ideal) x2) q = Cert.Spec.head (x2 (ix1 q)) := by
  apply Fin.ext
  show min ((val_main_v13 (F := Ideal) x2) (ix2 q (0 : Fin 1))).toInt.toNat (1000 - 1) = min (x2 (ix1 q)).toNat 999
  rw [val_main_v13_apply, wrappedB x2 h, idx13]
  exact Cert.HeadIndex.clamp_eq _ (h _)

/-- Row p's place in its region. -/
def place (p : Fin 524288) : Fin 2048 := ⟨p.val % 2048, Nat.mod_lt _ (by decide)⟩

/-- Entry (p, o) of the [524288, 256] result is entry (p / 2048, p % 2048, o) of the [256, 2048, 256] sum. -/
theorem idx19 (p : Fin 524288) (o : Fin 256) : idx_main_v19 (ix2 p o) = ix3 (Cert.Spec.region p) (place p) o := by
  have hp := p.isLt; have ho := o.isLt
  funext a; refine Fin.ext ?_
  match a with
  | ⟨0, _⟩ => show (p.val * 256 + o.val) / 524288 = p.val / 2048; omega
  | ⟨1, _⟩ => show (p.val * 256 + o.val) / 256 % 2048 = p.val % 2048; omega
  | ⟨2, _⟩ => show (p.val * 256 + o.val) % 256 = o.val; omega

theorem lidx15 (q : Fin 256) (s : Fin 2048) (o k : Fin 256) : lidx_main_v15 (ix3 q s o) k = ix3 q s k := by
  funext a; match a with | ⟨0, _⟩ => rfl | ⟨1, _⟩ => rfl | ⟨2, _⟩ => rfl

theorem ridx15 (q : Fin 256) (s : Fin 2048) (o k : Fin 256) : ridx_main_v15 (ix3 q s o) k = ix3 q k o := by
  funext a; match a with | ⟨0, _⟩ => rfl | ⟨1, _⟩ => rfl | ⟨2, _⟩ => rfl

/-- Entry (p / 2048, p % 2048, k) of the input seen as [256, 2048, 256] is entry (p, k) of the input. -/
theorem idx0 (p : Fin 524288) (k : Fin 256) : idx_main_v0 (ix3 (Cert.Spec.region p) (place p) k) = ix2 p k := by
  have hp := p.isLt; have hk := k.isLt
  funext a; refine Fin.ext ?_
  match a with
  | ⟨0, _⟩ => show ((p.val / 2048 * 2048 + p.val % 2048) * 256 + k.val) / 256 = p.val; omega
  | ⟨1, _⟩ => show ((p.val / 2048 * 2048 + p.val % 2048) * 256 + k.val) % 256 = k.val; omega

theorem idx17 (q : Fin 256) (s : Fin 2048) (o : Fin 256) : idx_main_v16 (idx_main_v17 (ix3 q s o)) = ix2 q o := by
  funext a; match a with | ⟨0, _⟩ => rfl | ⟨1, _⟩ => rfl

/-- THE REFERENCE AT (p, o): the specification's entry. -/
theorem ref_at (h : ∀ q, (x2 q).toNat < 2 ^ 31) (p : Fin 524288) (o : Fin 256) :
    val_main_v19 (F := Ideal) x0 x2 x3 x4 (ix2 p o) = Cert.Spec.outAt x0 x2 x3 x4 p o := by
  rw [val_main_v19_apply, val_main_v18_apply, val_main_v15_apply, val_main_v17_apply, val_main_v16_apply, idx19, idx17]
  unfold Cert.Spec.outAt val_main_v14
  rw [gatherB_apply, startB x2 h]
  refine congrArg (· + x4 (ix2 (Cert.Spec.head (x2 (ix1 (Cert.Spec.region p)))) o)) ?_
  refine Finset.sum_congr rfl fun k _ => ?_
  rw [lidx15, ridx15, val_main_v0_apply, idx0]
  unfold val_main_v7
  rw [gatherW_apply, startW x2 h]

/-- The reference's whole result is the specification's array. -/
theorem ref_eq (h : ∀ q, (x2 q).toNat < 2 ^ 31) :
    val_main_v19 (F := Ideal) x0 x2 x3 x4 = Cert.Spec.out x0 x2 x3 x4 := by
  funext j
  rw [eq_ix2 j]
  exact ref_at x0 x2 x3 x4 h _ _

end Cert.ReferenceIdeal.RefValue

end
-- ==== Proof.PreDecode.lean ====
/-
  The precondition's last conjunct, decoded: every region word passes the signed test 0 ≤ r.

  The precondition is a conjunction of reductions by "and", each over one array; the last is over the 256 comparisons
  of the region words with zero. A conjunction that is 1 has every conjunct 1, and a reduction by "and" that is 1 met
  a 1 at every index. A word that passes the signed test is below 2^31.
-/
import proofs.«417317_j59760174956791_3_alg».proof.Defs
import proofs.«417317_j59760174956791_3_alg».proof.Proof.Gen.Pre_finite_inputs
import proofs.«417317_j59760174956791_3_alg».proof.Proof.HeadIndex
import Idealize.ShloMosaic.Lib.ReduceAll
import Idealize.ShloMosaic.Lib.ValueIdx

noncomputable section

namespace Cert.PreDecode

open Idealize.ShloMosaic Cert.Pre_finite_inputs Cert.Pre_finite_inputs.Gen

instance : Subsingleton S_.Idx := ⟨fun a b => funext fun d => d.elim0⟩

variable {F : FTy → Type} [FloatOps F]

/-- Under the precondition no region word is negative. -/
theorem words_nonneg (a0 : FVec F S524288x256 .f32) (a1 : IVec S257 32) (a2 : IVec S256 32)
    (a3 : FVec F S1000x256x256 .f32) (a4 : FVec F S1000x256 .f32)
    (h : fn (F := F) a0 a1 a2 a3 a4 = fun _ => 1#1) (q : S256.Idx) : (a2 q).toNat < 2 ^ 31 := by
  have e := congrFun h ValueIdx.ix0
  unfold fn at e
  dsimp only at e
  unfold fn_part1 at e
  dsimp only at e
  have e2 := (IntOp.andi_eq_one.1 e).2
  have e3 := Host.reduce_andi_all _ _ _ _ _ e2 q
  exact (Cert.HeadIndex.nonneg_iff _).1 e3

end Cert.PreDecode

end
-- ==== Proof.lean ====
/-
  A grouped matrix product with per-region heads: 524288 rows in 256 regions of 2048, each region multiplied by the
  256 × 256 matrix, and shifted by the bias row, of the head its 32-bit word names among 1000.

  The kernel clips each word into [0, 999] before it uses it as a block index; the reference wraps a negative word
  and lets the table read clamp it. For a word that is not negative — the precondition's added conjunct — both name
  the head min word 999, and both programs compute, over the extended reals,

    out[p, o] = Σ_k x[p, k] · W[head, k, o] + B[head, o],   head = min reg[p / 2048] 999,

  the same sum in the same order on both sides, so no finiteness is used. The frames need no condition on the words
  at all: the clipped word is below 1000 whatever the word, so the kernel's table-indexed blocks lie inside their
  tables. The idealization rewrote nothing.
-/
import proofs.«417317_j59760174956791_3_alg».proof.Defs
import proofs.«417317_j59760174956791_3_alg».proof.Proof.Gen.Kernel
import proofs.«417317_j59760174956791_3_alg».proof.Proof.Gen.Kernel.Frame
import proofs.«417317_j59760174956791_3_alg».proof.Proof.Gen.KernelIdeal
import proofs.«417317_j59760174956791_3_alg».proof.Proof.Gen.KernelIdeal.Frame
import proofs.«417317_j59760174956791_3_alg».proof.Proof.Gen.ReferenceIdeal
import proofs.«417317_j59760174956791_3_alg».proof.Proof.Gen.ReferenceIdeal.Run
import proofs.«417317_j59760174956791_3_alg».proof.Proof.Gen.ReferenceIdeal.Read
import proofs.«417317_j59760174956791_3_alg».proof.Proof.Gen.Pre_finite_inputs
import proofs.«417317_j59760174956791_3_alg».proof.Proof.KernelTable
import proofs.«417317_j59760174956791_3_alg».proof.Proof.KernelIdealTable
import proofs.«417317_j59760174956791_3_alg».proof.Proof.KernelValue
import proofs.«417317_j59760174956791_3_alg».proof.Proof.RefValue
import proofs.«417317_j59760174956791_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs: its table-indexed blocks are inside their tables whatever the words. -/
theorem frame_k : Cert.frame_Kernel := fun m ρ _ => Cert.Kernel.Gen.frame m ρ (Cert.Kernel.Table.ok m)

/-- The same at the ideal values. -/
theorem frame_ki : Cert.frame_KernelIdeal := fun m ρ _ => Cert.KernelIdeal.Gen.frame m ρ (Cert.KernelIdeal.Table.ok m)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's array of the (agreeing) argument arrays. -/
theorem algebraic : Cert.algebraic_KernelIdeal_ReferenceIdeal := by
  intro m ρ m' ρ' hpre hagree
  have hnn : ∀ q, (m (((0 : Dev Cert.KernelIdeal.nD) : Thread Cert.KernelIdeal.nD Cert.KernelIdeal.τ).loc Cert.KernelIdeal.main_arg2) q).toNat < 2 ^ 31 :=
    fun q => Cert.PreDecode.words_nonneg _ _ _ _ _ (hpre 0) q
  refine ⟨fun c => Cert.KernelIdeal.KValue.G m c, Cert.KernelIdeal.KValue.run m ρ hnn, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2.1, (hagree c).2.2.2.2]
  obtain rfl : c = 0 := Subsingleton.elim _ _
  exact (Cert.ReferenceIdeal.Read.val_main_v19_eq _ _ _ _).trans (Cert.ReferenceIdeal.RefValue.ref_eq _ _ _ _ hnn)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
